-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x128 .f32) (main_arg3 : FVec F S128 .f32) (main_arg4 : FVec F S128x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x128 : Shape := ⟨2, ![1, 128]⟩
abbrev S100000x128 : Shape := ⟨2, ![100000, 128]⟩
abbrev S10000x64 : Shape := ⟨2, ![10000, 64]⟩
abbrev S10000x128 : Shape := ⟨2, ![10000, 128]⟩
abbrev S1x64 : Shape := ⟨2, ![1, 64]⟩

abbrev nBuf : Space → Nat
  | .hbm => 83
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x1, .f32⟩
  | .hbm, ⟨55, _⟩ => ⟨S1700000x64, .f32⟩
  | .hbm, ⟨56, _⟩ => ⟨S1700000x64, .f32⟩
  | .hbm, ⟨57, _⟩ => ⟨S_, .f32⟩
  | .hbm, ⟨58, _⟩ => ⟨S100000x64, .f32⟩
  | .hbm, ⟨59, _⟩ => ⟨S1700000x1, .i32⟩
  | .hbm, ⟨60, _⟩ => ⟨S100000x64, .f32⟩
  | .hbm, ⟨61, _⟩ => ⟨S1x128, .f32⟩
  | .hbm, ⟨62, _⟩ => ⟨S100000x128, .f32⟩
  | .hbm, ⟨63, _⟩ => ⟨S100000x64, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x64, .f32⟩
  | .hbm, ⟨73, _⟩ => ⟨S1700000x1, .f32⟩
  | .hbm, ⟨74, _⟩ => ⟨S1700000x64, .f32⟩
  | .hbm, ⟨75, _⟩ => ⟨S1700000x64, .f32⟩
  | .hbm, ⟨76, _⟩ => ⟨S_, .f32⟩
  | .hbm, ⟨77, _⟩ => ⟨S100000x64, .f32⟩
  | .hbm, ⟨78, _⟩ => ⟨S1700000x1, .i32⟩
  | .hbm, ⟨79, _⟩ => ⟨S100000x64, .f32⟩
  | .hbm, ⟨80, _⟩ => ⟨S1x64, .f32⟩
  | .hbm, ⟨81, _⟩ => ⟨S100000x64, .f32⟩
  | .hbm, ⟨82, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x64, .f32⟩
  | .local _ .vmem, ⟨9, _⟩ => ⟨S10000x64, .f32⟩
  | .local _ .vmem, ⟨10, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_c_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S128_S1x128 : S128.ShapeCasts S1x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x128_S10000x128_1_0_0_1_n_n_wf : DotDims.WF S10000x64 S64x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v43) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v45) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x64, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x64, .f32⟩
  | .hbm, ⟨78, _⟩ => ⟨S1700000x1, .f32⟩
  | .hbm, ⟨79, _⟩ => ⟨S1700000x64, .f32⟩
  | .hbm, ⟨80, _⟩ => ⟨S1700000x64, .f32⟩
  | .hbm, ⟨81, _⟩ => ⟨S_, .f32⟩
  | .hbm, ⟨82, _⟩ => ⟨S100000x64, .f32⟩
  | .hbm, ⟨83, _⟩ => ⟨S1700000x1, .i32⟩
  | .hbm, ⟨84, _⟩ => ⟨S100000x64, .f32⟩
  | .hbm, ⟨85, _⟩ => ⟨S1x64, .f32⟩
  | .hbm, ⟨86, _⟩ => ⟨S100000x64, .f32⟩
  | .hbm, ⟨87, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Finite.lean ====
/-
  From the precondition to real entries.

  The precondition is the conjunction of five tests, one per float argument: the conjunction over all entries of
  |a| < +∞. At the ideal instance an entry is an extended real, and |a| < +∞ excludes exactly the two infinities, so the
  entry is a real number. Needed here: the first test (the node features x) and the second (the first weight matrix).
-/
import proofs.«110406_j32959579030036_1_alg».proof.Pre_finite_inputs
import proofs.«110406_j32959579030036_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.Finite

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- A one-bit word made from a Boolean is 1 exactly when the Boolean is true. -/
theorem ofBool_eq_one (b : Bool) : BitVec.ofBool b = 1#1 ↔ b = true := by cases b <;> decide

/-- The word 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is below +∞ is a real number: at -∞ the negation is +∞, at +∞ the
    entry itself is. -/
theorem real_of_abs_lt_top (x : EReal) (h : max x (-x) < ⊤) : ∃ q : ℝ, x = (q : EReal) := by
  induction x using EReal.rec with
  | bot => simp at h
  | coe r => exact ⟨r, rfl⟩
  | top => simp at h

/-- One test of the precondition, at any shape: if the conjunction over all entries of |a| < +∞ is 1, every entry of a is
    a real number. -/
theorem real_of_test {s : Shape} {axes : List (Fin s.rank)} (a : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf a) (broadcastInDim s ![] hb (constant S_ .f32 0x7F800000#32)))
      (constantI S_ 1 1#1) hr hu j = 1#1)
    (i : s.Idx) : ∃ q : ℝ, a i = (q : EReal) := by
  have h1 := Host.reduce_andi_all _ _ hr hu j e i
  have h2 : Ideal.cmp .olt (max (a i) (-(a i))) (Ideal.ofBits .f32 0x7F800000#32) = 1#1 := h1
  rw [ofBits_inf] at h2
  have h3 : max (a i) (-(a i)) < ⊤ := by
    have h4 := (ofBool_eq_one _).1 h2
    exact of_decide_eq_true h4
  exact real_of_abs_lt_top _ h3

/-- Under the precondition every entry of the node features and of the first weight matrix is a real number. -/
theorem real_of_pre (a0 : FVec Ideal S100000x64 .f32) (a1 : IVec S2x1600000 32) (a2 : FVec Ideal S64x128 .f32)
    (a3 : FVec Ideal S128 .f32) (a4 : FVec Ideal S128x64 .f32) (a5 : FVec Ideal S64 .f32)
    (h : Cert.Pre_finite_inputs.fn (F := Ideal) a0 a1 a2 a3 a4 a5 = fun _ => 1#1) :
    (∀ i, ∃ q : ℝ, a0 i = (q : EReal)) ∧ (∀ i, ∃ q : ℝ, a2 i = (q : EReal)) := by
  have h0 := congrFun h ValueIdx.ix0
  dsimp only [Cert.Pre_finite_inputs.fn, Cert.Pre_finite_inputs.fn_part1] at h0
  obtain ⟨h0, -⟩ := IntOp.andi_eq_one.1 h0
  obtain ⟨h0, -⟩ := IntOp.andi_eq_one.1 h0
  obtain ⟨h0, -⟩ := IntOp.andi_eq_one.1 h0
  obtain ⟨t0, t2⟩ := IntOp.andi_eq_one.1 h0
  exact ⟨fun i => real_of_test a0 _ _ _ _ t0 i, fun i => real_of_test a2 _ _ _ _ t2 i⟩

end Cert.Finite

end
-- ==== Proof.KernelFold.lean ====
/-
  The kernel's boundary contents, read back to the launch memory.

  @main is host operations, the first dense layer's region, the second product's region, and host operations again. What a
  buffer holds at a boundary is a fold through those pieces; here the buffers the value needs are read back:

  * the source and target row numbers of the edges (with the self-loops appended) and the edge weights are the same
    terms of the edge list as the reference's stages of those names;
  * the array the first region stages as its input is the AGGREGATION of the node features: gather the rows by source,
    scale each by its edge weight, scatter-add them by target (`agg`);
  * the array the first region stages as its bias is the bias vector as a row; the weight matrices are the arguments;
  * the result is the aggregation of what the second region wrote, plus the second bias broadcast over the rows.
  Every equation here holds at any float family: both sides are the same operations of the same arrays.
-/
import proofs.«110406_j32959579030036_1_alg».proof.Proof.Gen.KernelIdeal.Frame
import proofs.«110406_j32959579030036_1_alg».proof.Proof.RefRead
import Idealize.ShloMosaic.Lib.StableHlo.Run

set_option maxRecDepth 16384

noncomputable section

namespace Cert.Fold

open Cert.KernelIdeal Cert.KernelIdeal.Gen
open Idealize.ShloMosaic Idealize.ShloMosaic.TcCoe Idealize.ShloMosaic.StableHlo Idealize.SL.Sem

variable {F : FTy → Type} [FloatOps F]

/-- The aggregation of an [100000 × 64] array over the graph `x1`: row `src e` of the array, times the weight of edge `e`,
    added into row `dst e` of an array of zeros — spelt with the reference's own stages of the edge list. -/
def agg (H : FVec F S100000x64 .f32) (x1 : IVec S2x1600000 32) : FVec F S100000x64 .f32 :=
  Host.scatterAdd Cert.ReferenceIdeal.scatter_S100000x64_S1700000x1_S1700000x64_1_0_0_1
    (Cert.ReferenceIdeal.ReadP.val_main_v60 (F := F)) (Cert.ReferenceIdeal.ReadP.val_main_v61 (F := F) x1)
    (mulf (Host.gather Cert.ReferenceIdeal.gather_S100000x64_S1700000x1_S1700000x64_1_0_n_n_0_1_164 H
        (Cert.ReferenceIdeal.ReadP.val_main_v55 (F := F) x1))
      (Cert.ReferenceIdeal.ReadP.val_main_v58 (F := F) x1))

/-- The reference's second aggregation is `agg` of its second product. -/
theorem ref_v62 (x0 : FVec F S100000x64 .f32) (x1 : IVec S2x1600000 32) (x2 : FVec F S64x128 .f32) (x3 : FVec F S128 .f32)
    (x4 : FVec F S128x64 .f32) :
    Cert.ReferenceIdeal.ReadP.val_main_v62 (F := F) x0 x1 x2 x3 x4
      = agg (Cert.ReferenceIdeal.ReadP.val_main_v49 (F := F) x0 x1 x2 x3 x4) x1 := rfl

variable (m : (ℓ : Loc nD τ sig) → Buf (Elt F) ℓ) (ρ : Dev nD → PrngReg)

/-! ## At the first region's entry -/

set_option maxHeartbeats 8000000 in
/-- The source row numbers. -/
theorem entry_v3 (c : Dev nD) :
    W3 m ρ c (Proc.devRef .tc main_v3) = Cert.ReferenceIdeal.ReadP.val_main_v3 (F := F) (m ((c : Thread nD τ).loc main_arg1)) := by
  show StableHlo.after hostOps0_2 (W2 m ρ c) (Proc.devRef .tc main_v3) = _
  after_results_simp <;> rfl

set_option maxHeartbeats 8000000 in
/-- The target row numbers. -/
theorem entry_v6 (c : Dev nD) :
    W3 m ρ c (Proc.devRef .tc main_v6) = Cert.ReferenceIdeal.ReadP.val_main_v6 (F := F) (m ((c : Thread nD τ).loc main_arg1)) := by
  show StableHlo.after hostOps0_2 (W2 m ρ c) (Proc.devRef .tc main_v6) = _
  after_results_simp <;> rfl

set_option maxHeartbeats 8000000 in
/-- The edge weights. -/
theorem entry_v30 (c : Dev nD) :
    W3 m ρ c (Proc.devRef .tc main_v30) = Cert.ReferenceIdeal.ReadP.val_main_v30 (F := F) (m ((c : Thread nD τ).loc main_arg1)) := by
  show StableHlo.after hostOps0_2 (W2 m ρ c) (Proc.devRef .tc main_v30) = _
  after_results_simp <;> rfl

set_option maxHeartbeats 8000000 in
/-- The first region's input is the aggregation of the node features. -/
theorem entry_v43 (c : Dev nD) :
    W3 m ρ c (Proc.devRef .tc main_v43) = agg (m ((c : Thread nD τ).loc main_arg0)) (m ((c : Thread nD τ).loc main_arg1)) := by
  show StableHlo.after hostOps0_2 (W2 m ρ c) (Proc.devRef .tc main_v43) = _
  after_results_simp <;> rfl

set_option maxHeartbeats 8000000 in
/-- The first region's bias operand is the bias vector as a row. -/
theorem entry_v44 (c : Dev nD) :
    W3 m ρ c (Proc.devRef .tc main_v44) = shapeCast S1x128 (m ((c : Thread nD τ).loc main_arg3)) shapeCasts_S128_S1x128 := by
  show StableHlo.after hostOps0_2 (W2 m ρ c) (Proc.devRef .tc main_v44) = _
  after_results_simp <;> rfl

set_option maxHeartbeats 8000000 in
/-- The first weight matrix, as launched. -/
theorem entry_arg2 (c : Dev nD) : W3 m ρ c (Proc.devRef .tc main_arg2) = m ((c : Thread nD τ).loc main_arg2) := by
  show StableHlo.after hostOps0_2 (W2 m ρ c) (Proc.devRef .tc main_arg2) = _
  after_results_simp <;> rfl

set_option maxHeartbeats 8000000 in
/-- The second weight matrix, as launched. -/
theorem entry_arg4 (c : Dev nD) : W3 m ρ c (Proc.devRef .tc main_arg4) = m ((c : Thread nD τ).loc main_arg4) := by
  show StableHlo.after hostOps0_2 (W2 m ρ c) (Proc.devRef .tc main_arg4) = _
  after_results_simp <;> rfl

set_option maxHeartbeats 8000000 in
/-- The second bias, as launched. -/
theorem entry_arg5 (c : Dev nD) : W3 m ρ c (Proc.devRef .tc main_arg5) = m ((c : Thread nD τ).loc main_arg5) := by
  show StableHlo.after hostOps0_2 (W2 m ρ c) (Proc.devRef .tc main_arg5) = _
  after_results_simp <;> rfl

/-! ## Between the regions, and after them -/

/-- What the second region stages as its input is what the first region's pipeline left in its output array. -/
theorem mid_v45 (c : Dev nD) : W4 m ρ c (Proc.devRef .tc main_v45) = (dat0 (V3 m ρ) c).arrAt 3 cfg0.N :=
  W4_arr m ρ c 3

/-- The second weight matrix is not an array of the first region. -/
theorem mid_arg4 (c : Dev nD) : W4 m ρ c (Proc.devRef .tc main_arg4) = m ((c : Thread nD τ).loc main_arg4) :=
  (W4_of_ne m ρ c main_arg4 (by decide)).trans (entry_arg4 m ρ c)

/-- What the tail gathers from is what the second region's pipeline left in its output array. -/
theorem exit_v46 (c : Dev nD) : W5 m ρ c (Proc.devRef .tc main_v46) = (dat1 (V4 m ρ) c).arrAt 2 cfg1.N :=
  W5_arr m ρ c 2

/-- Neither region writes the row numbers, the weights or the second bias. -/
theorem exit_v3 (c : Dev nD) :
    W5 m ρ c (Proc.devRef .tc main_v3) = Cert.ReferenceIdeal.ReadP.val_main_v3 (F := F) (m ((c : Thread nD τ).loc main_arg1)) :=
  (W5_of_ne m ρ c main_v3 (by decide)).trans ((W4_of_ne m ρ c main_v3 (by decide)).trans (entry_v3 m ρ c))
theorem exit_v6 (c : Dev nD) :
    W5 m ρ c (Proc.devRef .tc main_v6) = Cert.ReferenceIdeal.ReadP.val_main_v6 (F := F) (m ((c : Thread nD τ).loc main_arg1)) :=
  (W5_of_ne m ρ c main_v6 (by decide)).trans ((W4_of_ne m ρ c main_v6 (by decide)).trans (entry_v6 m ρ c))
theorem exit_v30 (c : Dev nD) :
    W5 m ρ c (Proc.devRef .tc main_v30) = Cert.ReferenceIdeal.ReadP.val_main_v30 (F := F) (m ((c : Thread nD τ).loc main_arg1)) :=
  (W5_of_ne m ρ c main_v30 (by decide)).trans ((W4_of_ne m ρ c main_v30 (by decide)).trans (entry_v30 m ρ c))
theorem exit_arg5 (c : Dev nD) : W5 m ρ c (Proc.devRef .tc main_arg5) = m ((c : Thread nD τ).loc main_arg5) :=
  (W5_of_ne m ρ c main_arg5 (by decide)).trans ((W4_of_ne m ρ c main_arg5 (by decide)).trans (entry_arg5 m ρ c))

set_option maxHeartbeats 8000000 in
/-- THE RESULT: the aggregation of what the second region wrote, plus the second bias over the rows. -/
theorem result_eq (c : Dev nD) :
    W6 m ρ c (Proc.devRef .tc main_v62)
      = addf (agg (W5 m ρ c (Proc.devRef .tc main_v46)) (m ((c : Thread nD τ).loc main_arg1)))
          (Cert.ReferenceIdeal.ReadP.val_main_v64 (F := F) (m ((c : Thread nD τ).loc main_arg5))) := by
  show StableHlo.after hostOps2 (W5 m ρ c) (Proc.devRef .tc main_v62) = _
  after_results_simp
  rw [exit_v3, exit_v6, exit_v30, exit_arg5]
  rfl

end Cert.Fold

end
-- ==== Proof.RowOps.lean ====
/-
  A row gather, a row scatter-add and a scatter-add of ones, read at an index.

  * Gathering rows of an [N × C] table by an [E × 1] column of row numbers: result row `e` is the table's row
    `rowOf N (idx e)`, the row number read as a signed integer and clamped into [0, N − 1].
  * Scatter-adding the rows of an [E × C] update array into an [N × C] array by an [E × 1] column of row numbers, at the
    exact (ideal) instance: entry (r, c) of the result is entry (r, c) of the operand plus the sum, over the update
    rows `e` whose row number read as a signed integer is exactly `r`, of the update's entry (e, c). A row number
    outside [0, N) lands nowhere.
  * A scatter-add of the constant one into the constant zero counts the updates landing at an index: a natural number.
-/
import Idealize.ShloMosaic.PureOps.Ideal
import Idealize.ShloMosaic.PureOps.ShapeOps
import Idealize.ShloMosaic.Lib.ValueIdx

noncomputable section

namespace Cert.Agg

open Idealize.ShloMosaic Idealize.ShloMosaic.ValueIdx

/-- The row of an `N`-row table that a row number selects when it is read signed and clamped into the table. -/
def rowOf (N : Nat) (hN : 0 < N) {w : Nat} (b : BitVec w) : Fin N := ⟨min b.toInt.toNat (N - 1), by omega⟩

/-- A list known to be a singleton has that one entry at every position. -/
private theorem getElem_of_eq_singleton {α : Type} {l : List α} {a : α} (hl : l = [a]) (i : Nat) (h : i < l.length) :
    l[i] = a := by
  subst hl
  obtain rfl : i = 0 := by simpa using h
  rfl

/-- An axis of a rank-2 shape is axis 0 or axis 1. -/
private theorem fin2_cases (a : Fin 2) : a = 0 ∨ a = 1 := by
  revert a; decide

/-- Of a rank-2 shape's two axes, the one outside `[1]` is axis 0, whatever the sizes. -/
private theorem kept2_one (f : Fin 2 → Nat) : (⟨2, f⟩ : Shape).kept [1] = [0] := by
  rfl

/-- Of a rank-2 shape's two axes, the one outside `[0]` is axis 1, whatever the sizes. -/
private theorem kept2_zero (f : Fin 2 → Nat) : (⟨2, f⟩ : Shape).kept [0] = [1] := by
  rfl

/-- A sum of ones over a finite set is the set's size. -/
private theorem sum_one_ereal {ι : Type} (S : Finset ι) : ∑ _j ∈ S, (1 : EReal) = ((S.card : ℝ) : EReal) := by
  classical
  induction S using Finset.induction_on with
  | empty => simp
  | insert a S ha ih =>
    rw [Finset.sum_insert ha, Finset.card_insert_of_notMem ha, ih, Nat.cast_succ, EReal.coe_add, add_comm]
    rfl

/-- Row `e` of a gather of rows is the table's row `rowOf N (idx e)`, column by column. -/
theorem gather_rows {α : Type} {N E C w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, C]) (hN : 0 < N)
    (x : (⟨2, ![N, C]⟩ : Shape).Idx → α) (idx : IVec ⟨2, ![E, 1]⟩ w) (e : Fin E) (c : Fin C) :
    Host.gather d x idx (ix2 e c) = x (ix2 (rowOf N hN (idx (ix2 e (0 : Fin 1)))) c) := by
  unfold Host.gather
  congr 1
  have hb : ∀ a : Fin 2, a ∉ d.operandBatchingDims := fun a => by rw [hob]; exact List.not_mem_nil
  have hbd : d.batchDims = [0] := by
    show Shape.kept _ d.offsetDims = [0]
    rw [hoff]; exact kept2_one _
  have hsk : d.sKept = [1] := by
    show Shape.kept _ (d.collapsedSliceDims ++ d.operandBatchingDims) = [1]
    rw [hcoll, hob]; exact kept2_zero _
  funext a
  apply Fin.ext
  rcases fin2_cases a with rfl | rfl
  · -- axis 0: collapsed and start-indexed; the clamped row number
    have hk : (0 : Fin 2) ∉ d.sKept := by rw [hsk]; simp
    have hm : (0 : Fin 2) ∈ d.startIndexMap := by rw [hsim]; exact List.mem_singleton.mpr rfl
    have hsl : d.sliceSizes 0 = 1 := by rw [hss]; rfl
    have hsi : d.siIdx (ix2 e c) ⟨d.startIndexMap.idxOf 0, List.idxOf_lt_length_iff.2 hm⟩ = ix2 e (0 : Fin 1) := by
      funext b
      apply Fin.ext
      rcases fin2_cases b with rfl | rfl
      · -- the result's one batch axis is axis 0, whose coordinate is `e`
        unfold GatherDims.siIdx
        rw [dif_neg (by rw [hivd]; simp)]
        unfold GatherDims.siCoord
        simp only [Fin.val_cast]
        have e0 : ∀ X : Fin 2, X = 0 → ((ix2 e c : (⟨2, ![E, C]⟩ : Shape).Idx) X).val = e.val := by
          rintro _ rfl; rfl
        exact e0 _ (getElem_of_eq_singleton hbd _ _)
      · -- the index vector's axis: component 0, the position of axis 0 in the start index map
        unfold GatherDims.siIdx
        rw [dif_pos (by rw [hivd]; rfl)]
        show List.idxOf (0 : Fin 2) d.startIndexMap = 0
        rw [hsim]; simp
    show d.start (ix2 e c) idx 0 + d.batchCoord (ix2 e c) 0 + d.offCoord (ix2 e c) 0
      = min (idx (ix2 e (0 : Fin 1))).toInt.toNat (N - 1)
    rw [GatherDims.batchCoord_eq_zero _ _ _ (hb _), GatherDims.offCoord_eq_zero _ _ _ hk]
    simp only [Nat.add_zero]
    unfold GatherDims.start
    rw [dif_pos hm, hsi, hsl]
    rfl
  · -- axis 1: the offset axis; start 0, offset coordinate the result's column
    have hk : (1 : Fin 2) ∈ d.sKept := by rw [hsk]; exact List.mem_singleton.mpr rfl
    have hm : (1 : Fin 2) ∉ d.startIndexMap := by rw [hsim]; simp
    show d.start (ix2 e c) idx 1 + d.batchCoord (ix2 e c) 1 + d.offCoord (ix2 e c) 1 = c.val
    rw [GatherDims.batchCoord_eq_zero _ _ _ (hb _)]
    unfold GatherDims.start GatherDims.offCoord
    rw [dif_neg hm, dif_pos hk, Nat.add_zero, Nat.zero_add]
    have e1 : ∀ X : Fin 2, X = 1 → ((ix2 e c : (⟨2, ![E, C]⟩ : Shape).Idx) X).val = c.val := by
      rintro _ rfl; rfl
    exact e1 _ (getElem_of_eq_singleton hoff _ _)

/-- An update entry (e, c') lands at entry (r, c) of the operand exactly when its row number, read signed, is `r` and
    its column is `c`: on axis 0 the start is the row number and the window coordinate 0, on axis 1 the start is 0 and
    the window coordinate the column; a row number outside [0, N) leaves the operand and lands nowhere. -/
private theorem resultIdx_rows_iff {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (c' : Fin C) (r : Fin N) (c : Fin C) :
    d.resultIdx? (ix2 e c') idx = some (ix2 r c) ↔ (idx (ix2 e (0 : Fin 1))).toInt = (r.val : ℤ) ∧ c' = c := by
  have hus : d.uScatter = [0] := by
    show Shape.kept _ d.updateWindowDims = [0]
    rw [huw]; exact kept2_one _
  have hsk : d.sKept = [1] := by
    show Shape.kept _ d.insertedWindowDims = [1]
    rw [hiw]; exact kept2_zero _
  have hm0 : (0 : Fin 2) ∈ d.scatterDimsToOperandDims := by rw [hsd]; exact List.mem_singleton.mpr rfl
  have hm1 : (1 : Fin 2) ∉ d.scatterDimsToOperandDims := by rw [hsd]; simp
  have hk0 : (0 : Fin 2) ∉ d.sKept := by rw [hsk]; simp
  have hk1 : (1 : Fin 2) ∈ d.sKept := by rw [hsk]; exact List.mem_singleton.mpr rfl
  have hsi : d.siIdx (ix2 e c') ⟨d.scatterDimsToOperandDims.idxOf 0, List.idxOf_lt_length_iff.2 hm0⟩
      = ix2 e (0 : Fin 1) := by
    funext b
    apply Fin.ext
    rcases fin2_cases b with rfl | rfl
    · -- the updates' one scatter axis is axis 0, whose coordinate is `e`
      unfold ScatterDims.siIdx
      rw [dif_neg (by rw [hivd]; simp)]
      unfold ScatterDims.siCoord
      simp only [Fin.val_cast]
      have e0 : ∀ X : Fin 2, X = 0 → ((ix2 e c' : (⟨2, ![E, C]⟩ : Shape).Idx) X).val = e.val := by
        rintro _ rfl; rfl
      exact e0 _ (getElem_of_eq_singleton hus _ _)
    · -- the index vector's axis: component 0, the position of axis 0 in the map
      unfold ScatterDims.siIdx
      rw [dif_pos (by rw [hivd]; rfl)]
      show List.idxOf (0 : Fin 2) d.scatterDimsToOperandDims = 0
      rw [hsd]; simp
  have hs0 : d.start (ix2 e c') idx 0 = (idx (ix2 e (0 : Fin 1))).toInt := by
    unfold ScatterDims.start; rw [dif_pos hm0, hsi]
  have hs1 : d.start (ix2 e c') idx 1 = 0 := by
    unfold ScatterDims.start; rw [dif_neg hm1]
  have hw0 : d.window (ix2 e c') 0 = 0 := by
    unfold ScatterDims.window; rw [dif_neg hk0]
  have hw1 : d.window (ix2 e c') 1 = c'.val := by
    unfold ScatterDims.window; rw [dif_pos hk1]
    have e1 : ∀ X : Fin 2, X = 1 → ((ix2 e c' : (⟨2, ![E, C]⟩ : Shape).Idx) X).val = c'.val := by
      rintro _ rfl; rfl
    exact e1 _ (getElem_of_eq_singleton huw _ _)
  have hr := r.isLt
  have hc := c.isLt
  have hc' := c'.isLt
  unfold ScatterDims.resultIdx?
  constructor
  · intro h
    by_cases hh : ∀ a, 0 ≤ d.start (ix2 e c') idx a + d.window (ix2 e c') a ∧
        d.start (ix2 e c') idx a + d.window (ix2 e c') a < (⟨2, ![N, C]⟩ : Shape).size a
    · rw [dif_pos hh] at h
      have hf := Option.some.inj h
      have h0 : (d.start (ix2 e c') idx 0 + d.window (ix2 e c') 0).toNat = r.val := congrArg Fin.val (congrFun hf 0)
      have h1 : (d.start (ix2 e c') idx 1 + d.window (ix2 e c') 1).toNat = c.val := congrArg Fin.val (congrFun hf 1)
      have hh0 := (hh 0).1
      rw [hs0, hw0] at h0 hh0
      rw [hs1, hw1] at h1
      exact ⟨by omega, Fin.ext (by omega)⟩
    · rw [dif_neg hh] at h
      exact absurd h (by simp)
  · rintro ⟨h0, rfl⟩
    have hh : ∀ a, 0 ≤ d.start (ix2 e c') idx a + d.window (ix2 e c') a ∧
        d.start (ix2 e c') idx a + d.window (ix2 e c') a < (⟨2, ![N, C]⟩ : Shape).size a := by
      intro a
      rcases fin2_cases a with rfl | rfl
      · rw [hs0, hw0, h0]
        show (0 : ℤ) ≤ (r.val : ℤ) + ((0 : ℕ) : ℤ) ∧ (r.val : ℤ) + ((0 : ℕ) : ℤ) < (N : ℤ)
        omega
      · rw [hs1, hw1]
        show (0 : ℤ) ≤ 0 + (c'.val : ℤ) ∧ 0 + (c'.val : ℤ) < (C : ℤ)
        omega
    rw [dif_pos hh]
    congr 1
    funext a
    apply Fin.ext
    rcases fin2_cases a with rfl | rfl
    · show (d.start (ix2 e c') idx 0 + d.window (ix2 e c') 0).toNat = r.val
      rw [hs0, hw0, h0]; omega
    · show (d.start (ix2 e c') idx 1 + d.window (ix2 e c') 1).toNat = c'.val
      rw [hs1, hw1]; omega

/-- Entry (r, c) of a scatter-add of rows: the operand's entry plus the entries (e, c) of the update rows `e` whose
    row number is exactly `r`. -/
theorem scatter_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (z : (⟨2, ![N, C]⟩ : Shape).Idx → EReal) (idx : IVec ⟨2, ![E, 1]⟩ w) (upd : (⟨2, ![E, C]⟩ : Shape).Idx → EReal)
    (r : Fin N) (c : Fin C) :
    Ideal.hostScatterAdd d z idx upd (ix2 r c)
      = z (ix2 r c) + ∑ e ∈ Finset.univ.filter (fun e : Fin E => (idx (ix2 e (0 : Fin 1))).toInt = (r.val : ℤ)), upd (ix2 e c) := by
  unfold Ideal.hostScatterAdd
  congr 1
  -- the update entries landing at (r, c) are the (e, c) with row number r: send (e, c) to e and back
  refine Finset.sum_bij' (fun j _ => (j 0 : Fin E)) (fun e _ => ix2 e c) ?_ ?_ ?_ ?_ ?_
  · intro j hj
    obtain ⟨a, b, rfl⟩ : ∃ a b, j = ix2 a b := ⟨j 0, j 1, eq_ix2 j⟩
    have hj' := (Finset.mem_filter.1 hj).2
    show a ∈ Finset.univ.filter (fun e : Fin E => (idx (ix2 e (0 : Fin 1))).toInt = (r.val : ℤ))
    exact Finset.mem_filter.2 ⟨Finset.mem_univ _, ((resultIdx_rows_iff d huw hiw hsd hivd idx a b r c).1 hj').1⟩
  · intro e he
    have he' := (Finset.mem_filter.1 he).2
    exact Finset.mem_filter.2 ⟨Finset.mem_univ _, (resultIdx_rows_iff d huw hiw hsd hivd idx e c r c).2 ⟨he', rfl⟩⟩
  · intro j hj
    obtain ⟨a, b, rfl⟩ : ∃ a b, j = ix2 a b := ⟨j 0, j 1, eq_ix2 j⟩
    obtain ⟨-, rfl⟩ := (resultIdx_rows_iff d huw hiw hsd hivd idx a b r c).1 (Finset.mem_filter.1 hj).2
    rfl
  · intro e _
    rfl
  · intro j hj
    obtain ⟨a, b, rfl⟩ : ∃ a b, j = ix2 a b := ⟨j 0, j 1, eq_ix2 j⟩
    obtain ⟨-, rfl⟩ := (resultIdx_rows_iff d huw hiw hsd hivd idx a b r c).1 (Finset.mem_filter.1 hj).2
    rfl

/-- Scatter-adding ones into zeros leaves a natural number at every index, whatever the dimension numbers and indices. -/
theorem scatter_ones_nat {s si su : Shape} (d : ScatterDims s si su) {w : Nat} (idx : IVec si w) (i : s.Idx) :
    ∃ k : ℕ, Ideal.hostScatterAdd d (fun _ => (0 : EReal)) idx (fun _ => (1 : EReal)) i = ((k : ℝ) : EReal) := by
  refine ⟨(Finset.univ.filter (fun j => d.resultIdx? j idx = some i)).card, ?_⟩
  unfold Ideal.hostScatterAdd
  rw [sum_one_ereal, zero_add]

/-- The same for the host's accumulating scatter as a program spells it, at the ideal instance: it IS the exact sum
    there (the float family's own field, which at the ideal instance is `Ideal.hostScatterAdd`). -/
theorem scatterAdd_rows {N E C w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (z : FVec Ideal ⟨2, ![N, C]⟩ .f32) (idx : IVec ⟨2, ![E, 1]⟩ w) (upd : FVec Ideal ⟨2, ![E, C]⟩ .f32)
    (r : Fin N) (c : Fin C) :
    Host.scatterAdd d z idx upd (ix2 r c)
      = z (ix2 r c) + ∑ e ∈ Finset.univ.filter (fun e : Fin E => (idx (ix2 e (0 : Fin 1))).toInt = (r.val : ℤ)), upd (ix2 e c) :=
  scatter_rows d huw hiw hsd hivd z idx upd r c

end Cert.Agg

end
-- ==== Proof.Law.lean ====
/-
  The linearity of a weighted row aggregation, on extended reals whose entries are real numbers.

  For a finite set `T` of edges, a real weight `n e` per edge, a real row `a e` (indexed by `k`) per edge and a
  real column `w` (indexed by `k`):
      Σ_k (Σ_{e ∈ T} a e k · n e) · w k  =  Σ_{e ∈ T} (Σ_k a e k · w k) · n e .
  Over the reals this is distributivity and an exchange of two finite sums. It is stated over the extended reals at
  real entries, where the same computation is valid because every partial sum and product is again a real number
  (over arbitrary extended reals it fails: ∞ − ∞).
-/
import Mathlib.Data.EReal.Basic
import Mathlib.Data.EReal.Operations
import Mathlib.Algebra.BigOperators.Ring.Finset
import Mathlib.Algebra.BigOperators.Group.Finset.Basic
import Mathlib.Algebra.BigOperators.Group.Finset.Sigma

namespace Cert.Agg

open scoped BigOperators

/-- The coercion of reals into the extended reals commutes with finite sums. -/
theorem coe_finset_sum {ι : Type*} (s : Finset ι) (f : ι → ℝ) :
    ((∑ i ∈ s, f i : ℝ) : EReal) = ∑ i ∈ s, (f i : EReal) := by
  classical
  -- Induction on the finite set: the empty sum is 0 on both sides, and inserting a new index adds one real
  -- summand, where the coercion is additive.
  induction s using Finset.induction_on with
  | empty => simp
  | insert i s hi ih => rw [Finset.sum_insert hi, Finset.sum_insert hi, EReal.coe_add, ih]

/-- Aggregating first and multiplying by a column afterwards is multiplying every row by the column first and
    aggregating afterwards, at real entries. -/
theorem agg_linear {E K : Type*} [Fintype K] (T : Finset E) (a : E → K → ℝ) (n : E → ℝ) (w : K → ℝ) :
    ∑ k, (∑ e ∈ T, (a e k : EReal) * (n e : EReal)) * (w k : EReal)
      = ∑ e ∈ T, (∑ k, (a e k : EReal) * (w k : EReal)) * (n e : EReal) := by
  -- Each summand on the left is the coercion of the real number (Σ_{e ∈ T} a e k · n e) · w k.
  have hL : ∀ k, (∑ e ∈ T, (a e k : EReal) * (n e : EReal)) * (w k : EReal)
      = (((∑ e ∈ T, a e k * n e) * w k : ℝ) : EReal) := by
    intro k
    rw [EReal.coe_mul, coe_finset_sum]
    simp only [EReal.coe_mul]
  -- Each summand on the right is the coercion of the real number (Σ_k a e k · w k) · n e.
  have hR : ∀ e, (∑ k, (a e k : EReal) * (w k : EReal)) * (n e : EReal)
      = (((∑ k, a e k * w k) * n e : ℝ) : EReal) := by
    intro e
    rw [EReal.coe_mul, coe_finset_sum]
    simp only [EReal.coe_mul]
  -- Both sides are therefore coercions of real double sums; it remains to compare those in ℝ.
  rw [Finset.sum_congr rfl (fun k _ => hL k), Finset.sum_congr rfl (fun e _ => hR e),
    ← coe_finset_sum, ← coe_finset_sum]
  congr 1
  -- In ℝ: distribute the outer factor into the inner sum, exchange the two sums, and reorder the three factors.
  simp only [Finset.sum_mul]
  rw [Finset.sum_comm]
  exact Finset.sum_congr rfl (fun e _ => Finset.sum_congr rfl (fun k _ => mul_right_comm _ _ _))

end Cert.Agg
-- ==== Proof.Core.lean ====
/-
  Aggregating first and multiplying afterwards is multiplying first and aggregating afterwards.

  The kernel aggregates the node features over the graph and multiplies the aggregate by the first weight matrix; the
  reference multiplies the features by the matrix and aggregates the product. Entry (r, c) of either is, over the edges
  `e` whose target is `r`, a sum of x(src e, k) · w(k, c) · norm(e) over `e` and `k`; the two differ in the order of the
  sums and in where the weight is factored out. That is distributivity, valid because every entry involved is a real
  number: the features and the matrix by the precondition, the edge weights because they are products of inverse
  square roots of positive integers, or zero.

  Both aggregations are first read at an index: a scatter-add of rows into zeros is, at row r, the sum of the update
  rows that land on r; a gather of rows reads the row its row number selects.
-/
import proofs.«110406_j32959579030036_1_alg».proof.Proof.KernelFold
import proofs.«110406_j32959579030036_1_alg».proof.Proof.RowOps
import proofs.«110406_j32959579030036_1_alg».proof.Proof.Law
import Idealize.ShloMosaic.PureOps.Ideal.Laws
import Idealize.ShloMosaic.Lib.ValueIdx

set_option maxRecDepth 16384

noncomputable section

namespace Cert.Core

open Cert.KernelIdeal
open Cert.ReferenceIdeal.ReadP
open Idealize.ShloMosaic Idealize.ShloMosaic.ValueIdx

/-- The edges whose target row number is exactly `r`. -/
def landing (x1 : IVec S2x1600000 32) (r : Fin 100000) : Finset (Fin 1700000) :=
  Finset.univ.filter fun e => (val_main_v61 (F := Ideal) x1 (ix2 e (0 : Fin 1))).toInt = (r.val : ℤ)

/-- The row of the table that edge `e`'s source row number selects. -/
def srcRow (x1 : IVec S2x1600000 32) (e : Fin 1700000) : Fin 100000 :=
  Cert.Agg.rowOf 100000 (by decide) (val_main_v55 (F := Ideal) x1 (ix2 e (0 : Fin 1)))

/-- The edge weights broadcast along 64 columns, read at (e, k): the weight of edge e. -/
theorem weight64_apply (x1 : IVec S2x1600000 32) (e : Fin 1700000) (k : Fin 64) :
    val_main_v58 (F := Ideal) x1 (ix2 e k) = val_main_v30 (F := Ideal) x1 (ix1 e) := by
  rw [val_main_v58_apply, val_main_v57_apply]
  exact congrArg _ (funext fun a => match a with | ⟨0, _⟩ => rfl)

/-- The edge weights broadcast along 128 columns, read at (e, c): the weight of edge e. -/
theorem weight128_apply (x1 : IVec S2x1600000 32) (e : Fin 1700000) (c : Fin 128) :
    val_main_v40 (F := Ideal) x1 (ix2 e c) = val_main_v30 (F := Ideal) x1 (ix1 e) := by
  rw [val_main_v40_apply, val_main_v39_apply]
  exact congrArg _ (funext fun a => match a with | ⟨0, _⟩ => rfl)

/-- THE AGGREGATION AT AN ENTRY: over the edges landing on row r, the table's entry (src e, k) times the edge's weight. -/
theorem agg_apply (H : FVec Ideal S100000x64 .f32) (x1 : IVec S2x1600000 32) (r : Fin 100000) (k : Fin 64) :
    Cert.Fold.agg (F := Ideal) H x1 (ix2 r k)
      = ∑ e ∈ landing x1 r, H (ix2 (srcRow x1 e) k) * val_main_v30 (F := Ideal) x1 (ix1 e) := by
  have hagg : Cert.Fold.agg (F := Ideal) H x1
      = Host.scatterAdd Cert.ReferenceIdeal.scatter_S100000x64_S1700000x1_S1700000x64_1_0_0_1
          (val_main_v60 (F := Ideal)) (val_main_v61 (F := Ideal) x1)
          (mulf (Host.gather Cert.ReferenceIdeal.gather_S100000x64_S1700000x1_S1700000x64_1_0_n_n_0_1_164 H
              (val_main_v55 (F := Ideal) x1)) (val_main_v58 (F := Ideal) x1)) := rfl
  rw [hagg, Cert.Agg.scatterAdd_rows _ rfl rfl rfl rfl, val_main_v60_apply, val_main_cst_11_apply, Ideal.ofBits_def,
    Ideal.ofBits_zero_f32, zero_add]
  refine Finset.sum_congr rfl fun e _ => ?_
  rw [mulf_apply, Cert.Agg.gather_rows _ rfl rfl rfl rfl rfl rfl rfl (by decide), weight64_apply]
  rfl

/-- THE REFERENCE'S FIRST AGGREGATION AT AN ENTRY: over the same edges, the product's entry (src e, c) times the weight. -/
theorem ref_agg_apply (x0 : FVec Ideal S100000x64 .f32) (x1 : IVec S2x1600000 32) (x2 : FVec Ideal S64x128 .f32)
    (r : Fin 100000) (c : Fin 128) :
    val_main_v44 (F := Ideal) x0 x1 x2 (ix2 r c)
      = ∑ e ∈ landing x1 r, val_main_v31 (F := Ideal) x0 x2 (ix2 (srcRow x1 e) c) * val_main_v30 (F := Ideal) x1 (ix1 e) := by
  have h44 : val_main_v44 (F := Ideal) x0 x1 x2
      = Host.scatterAdd (F := Ideal) (φ := .f32) Cert.ReferenceIdeal.scatter_S100000x128_S1700000x1_S1700000x128_1_0_0_1
          (val_main_v42 (F := Ideal)) (val_main_v43 (F := Ideal) x1) (val_main_v41 (F := Ideal) x0 x1 x2) := rfl
  have h43 : val_main_v43 (F := Ideal) x1 = val_main_v61 (F := Ideal) x1 := rfl
  have h38 : val_main_v38 (F := Ideal) x0 x1 x2
      = Host.gather Cert.ReferenceIdeal.gather_S100000x128_S1700000x1_S1700000x128_1_0_n_n_0_1_1128
          (val_main_v31 (F := Ideal) x0 x2) (val_main_v37 (F := Ideal) x1) := rfl
  have h37 : val_main_v37 (F := Ideal) x1 = val_main_v55 (F := Ideal) x1 := rfl
  rw [h44, h43, Cert.Agg.scatterAdd_rows _ rfl rfl rfl rfl, val_main_v42_apply, val_main_cst_8_apply, Ideal.ofBits_def,
    Ideal.ofBits_zero_f32, zero_add]
  refine Finset.sum_congr rfl fun e _ => ?_
  rw [val_main_v41_apply, Ideal.mulf_def, h38, h37, Cert.Agg.gather_rows _ rfl rfl rfl rfl rfl rfl rfl (by decide),
    weight128_apply]
  rfl

/-- THE LAW at an entry: the aggregate times the matrix is the aggregation of the product, at real entries. -/
theorem agg_mul_eq (x0 : FVec Ideal S100000x64 .f32) (x1 : IVec S2x1600000 32) (x2 : FVec Ideal S64x128 .f32)
    (hx0 : ∀ i, ∃ q : ℝ, x0 i = (q : EReal)) (hx2 : ∀ i, ∃ q : ℝ, x2 i = (q : EReal))
    (hn : ∀ u, ∃ q : ℝ, val_main_v30 (F := Ideal) x1 u = (q : EReal)) (r : Fin 100000) (c : Fin 128) :
    ∑ k : Fin 64, Cert.Fold.agg (F := Ideal) x0 x1 (ix2 r k) * x2 (ix2 k c) = val_main_v44 (F := Ideal) x0 x1 x2 (ix2 r c) := by
  choose x0r h0 using hx0
  choose x2r h2 using hx2
  choose nr hnr using hn
  have hl : ∀ (s : Fin 100000) (k : Fin 64), lidx_main_v31 (ix2 s c) k = ix2 s k := fun s k =>
    funext fun a => match a with | ⟨0, _⟩ => rfl | ⟨1, _⟩ => rfl
  have hr : ∀ (s : Fin 100000) (k : Fin 64), ridx_main_v31 (ix2 s c) k = ix2 k c := fun s k =>
    funext fun a => match a with | ⟨0, _⟩ => rfl | ⟨1, _⟩ => rfl
  -- the kernel's side, entry by entry of the contracted axis, over the real witnesses
  have hK : ∀ k : Fin 64, Cert.Fold.agg (F := Ideal) x0 x1 (ix2 r k) * x2 (ix2 k c)
      = (∑ e ∈ landing x1 r, ((x0r (ix2 (srcRow x1 e) k) : ℝ) : EReal) * ((nr (ix1 e) : ℝ) : EReal))
          * ((x2r (ix2 k c) : ℝ) : EReal) := fun k => by
    rw [agg_apply, h2]
    exact congrArg (· * ((x2r (ix2 k c) : ℝ) : EReal)) (Finset.sum_congr rfl fun e _ => by rw [h0, hnr])
  -- the reference's side, edge by edge, over the same witnesses
  have hR : ∀ e : Fin 1700000, val_main_v31 (F := Ideal) x0 x2 (ix2 (srcRow x1 e) c) * val_main_v30 (F := Ideal) x1 (ix1 e)
      = (∑ k : Fin 64, ((x0r (ix2 (srcRow x1 e) k) : ℝ) : EReal) * ((x2r (ix2 k c) : ℝ) : EReal))
          * ((nr (ix1 e) : ℝ) : EReal) := fun e => by
    rw [val_main_v31_apply, hnr]
    exact congrArg (· * ((nr (ix1 e) : ℝ) : EReal)) (Finset.sum_congr rfl fun k _ => by rw [hl, hr, h0, h2])
  rw [ref_agg_apply, Finset.sum_congr rfl fun k _ => hK k, Finset.sum_congr rfl fun e _ => hR e]
  exact Cert.Agg.agg_linear (landing x1 r) (fun e k => x0r (ix2 (srcRow x1 e) k)) (fun e => nr (ix1 e)) (fun k => x2r (ix2 k c))

end Cert.Core

end
-- ==== Proof.Region0.lean ====
/-
  The first dense layer's region: what its output array holds after the region, as one function of the
  arrays the region finds, index by index, at the ideal instance.

  The grid has ten points; point t stages rows 10000·t … 10000·t + 9999 of the [100000 × 64] input, the whole [64 × 128]
  weight matrix and the [1 × 128] bias row, and writes back rows 10000·t … 10000·t + 9999 of the [100000 × 128] output. The body
  stores max(x·w + b, 0) of its blocks (the two changes of float format before the product are the identity on
  extended reals, and a matrix-unit product into the zero accumulator is the plain sum over the contracted axis).
  So entry (r, j) of the output is max(Σ_k a(r, k) · w(k, j) + b(0, j), 0): row r of the output depends on row r of
  the input only, and the ten row blocks tile the array.
-/
import proofs.«110406_j32959579030036_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The dense layer with its rectifier, entry by entry: max(Σ_k a(r, k) · w(k, j) + b(0, j), 0). -/
def dense (a : S100000x64.Idx → EReal) (w : S64x128.Idx → EReal) (b : S1x128.Idx → EReal) : S100000x128.Idx → EReal :=
  fun i => max ((∑ k : Fin 64, a (ix2 (i 0) k) * w (ix2 k (i 1))) + b (ix2 (0 : Fin 1) (i 1))) 0

/-! ## The block index maps and the zero offsets -/

/-- A whole staging buffer is accessed at the offsets (0, 0): the constant zero function. -/
theorem origin_eq : (![0, 0] : Fin 2 → Nat) = fun _ => 0 := funext fun a => by fin_cases a <;> rfl

/-- The printed block index maps, decided over the ten grid points: point t takes row block t of the input and of
    the output, column block 0 of both, and block (0, 0) of the weight matrix and of the bias row. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The matrix product's operand indices, axis by axis -/

/-- The left operand's row is the output's row. -/
theorem product_lhs_row (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
/-- The left operand's column is the contracted position. -/
theorem product_lhs_col (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
/-- The right operand's row is the contracted position. -/
theorem product_rhs_row (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
/-- The right operand's column is the output's column. -/
theorem product_rhs_col (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-! ## The body's arithmetic at one entry of a block -/

/-- The product of a [10000 × 64] block and the [64 × 128] matrix into the zero accumulator, at entry (p, q): the plain
    sum over the contracted axis. -/
theorem product_apply (x0 : FVec Ideal S10000x64 .bf16) (x1 : FVec Ideal S64x128 .bf16) (p : Fin 10000) (q : Fin 128) :
    FloatOps.matmul dot_S10000x64_S64x128_S10000x128_1_0_0_1_n_n none x0 x1 (constant S10000x128 .f32 0x00000000#32) (ix2 p q)
      = ∑ k : Fin 64, x0 (ix2 p k) * x1 (ix2 k q) := by
  rw [Ideal.matmul_constant_zero_apply, ← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 p q) ((contrEquiv1 dot_S10000x64_S64x128_S10000x128_1_0_0_1_n_n 64 rfl rfl).symm k) = ix2 p k := funext fun a => Fin.ext (by
    match a with
    | ⟨0, _⟩ => exact product_lhs_row _ _
    | ⟨1, _⟩ => exact (product_lhs_col _ _).trans hk)
  have er : dot_S10000x64_S64x128_S10000x128_1_0_0_1_n_n.rhsIdx (ix2 p q) ((contrEquiv1 dot_S10000x64_S64x128_S10000x128_1_0_0_1_n_n 64 rfl rfl).symm k) = ix2 k q := funext fun a => Fin.ext (by
    match a with
    | ⟨0, _⟩ => exact (product_rhs_row _ _).trans hk
    | ⟨1, _⟩ => exact product_rhs_col _ _)
  rw [el, er]

/-- The bias row spread over the 10000 rows of a block: entry (p, q) is the row's entry (0, q). -/
theorem bias_rows_apply (x2 : FVec Ideal S1x128 .f32) (p : Fin 10000) (q : Fin 128) :
    broadcastTo S10000x128 x2 broadcasts_S1x128_S10000x128 (ix2 p q) = x2 (ix2 (0 : Fin 1) q) := by
  refine broadcastTo_apply x2 broadcasts_S1x128_S10000x128 (ix2 p q) (ix2 (0 : Fin 1) q) fun a => ?_
  match a with
  | ⟨0, _⟩ => rfl
  | ⟨1, _⟩ => rfl

/-- What the body stores at entry (p, q) of its output block, from its three input blocks: the two changes of float
    format are the identity, the product is the sum over the contracted axis, the bias row is added to every row, and
    the rectifier is the maximum with zero. -/
theorem payload_apply (x0 : Vec Ideal S10000x64 .f32) (x1 : Vec Ideal S64x128 .f32) (x2 : Vec Ideal S1x128 .f32)
    (p : Fin 10000) (q : Fin 128) :
    k0_pay1 x0 x1 x2 (ix2 p q) = max ((∑ k : Fin 64, x0 (ix2 p k) * x1 (ix2 k q)) + x2 (ix2 (0 : Fin 1) q)) 0 := by
  unfold k0_pay1
  simp only [shapeCast_self]
  rw [maximumf_apply, addf_apply, broadcast_apply, bias_rows_apply]
  simp only [matmul]
  rw [product_apply]
  simp only [truncf_apply]
  show max _ (Ideal.ofBits .f32 0x00000000#32) = _
  rw [Ideal.ofBits_zero_f32]

/-- An entry of the stored block is the dense layer's entry at array index i as soon as the three input blocks hold,
    along row j₀ of the first, column j₁ of the second and at column j₁ of the bias row, what the arrays hold along
    row i₀, column i₁ and at column i₁. -/
theorem entry_eq_dense (a : S100000x64.Idx → EReal) (w : S64x128.Idx → EReal) (b : S1x128.Idx → EReal)
    (x0 : Vec Ideal S10000x64 .f32) (x1 : Vec Ideal S64x128 .f32) (x2 : Vec Ideal S1x128 .f32)
    (j : S10000x128.Idx) (i : S100000x128.Idx)
    (h0 : ∀ k : Fin 64, x0 (ix2 (j 0) k) = a (ix2 (i 0) k))
    (h1 : ∀ k : Fin 64, x1 (ix2 k (j 1)) = w (ix2 k (i 1)))
    (h2 : x2 (ix2 (0 : Fin 1) (j 1)) = b (ix2 (0 : Fin 1) (i 1))) :
    k0_pay1 x0 x1 x2 j = dense a w b i := by
  refine (congrArg (k0_pay1 x0 x1 x2) (eq_ix2 j)).trans ((payload_apply x0 x1 x2 (j 0) (j 1)).trans ?_)
  unfold dense
  simp only [h0, h1, h2]

/-! ## From the blocks to the array -/

/-- What point t writes back is block t of the dense layer of the arrays the region finds: the output block's rows
    are rows 10000·t + j₀ of the array, the input block's rows are the same rows of the input, and the weight matrix
    and the bias row are staged whole. -/
theorem flushed_eq (c : Dev nD) (t : Fin cfg0.N) :
    (dat0 (F := Ideal) V c).flushed 3 t
      = ((cfg0.win 3).blk t).view.read (Elt Ideal) (dense (V c main_v43) (V c main_arg2) (V c main_v44)) := by
  show (cfg0.win 3).cut (grid0.coords t) ((dat0 V c).after 3 t) = _
  rw [after0_3]
  unfold out0_3
  rw [View.canon_unit_zero origin_eq]
  simp only [View.ld_unit_zero (S := S10000x64) origin_eq, View.ld_unit_zero (S := S64x128) origin_eq,
    View.ld_unit_zero (S := S1x128) origin_eq]
  obtain ⟨e00, e01, e10, e11, e20, e21, e30, e31⟩ := block_indices t
  refine funext fun (j : S10000x128.Idx) => ?_
  refine entry_eq_dense _ _ _ _ _ _ j (((cfg0.win 3).blk t).view.emb j) (fun k => ?_) (fun k => ?_) ?_
  · show V c main_v43 (((cfg0.win 0).blk t).view.emb (ix2 (j 0) k : S10000x64.Idx))
      = V c main_v43 (ix2 ((((cfg0.win 3).blk t).view.emb j) 0) k : S100000x64.Idx)
    refine congrArg (V c main_v43) (funext fun a => Fin.ext ?_)
    match a with
    | ⟨0, _⟩ =>
      show win0_0.index t (0 : Fin 2) * 10000 + 1 * (j 0).val = win0_3.index t (0 : Fin 2) * 10000 + 1 * (j 0).val
      omega
    | ⟨1, _⟩ =>
      show win0_0.index t (1 : Fin 2) * 64 + 1 * k.val = k.val
      omega
  · show V c main_arg2 (((cfg0.win 1).blk t).view.emb (ix2 k (j 1) : S64x128.Idx))
      = V c main_arg2 (ix2 k ((((cfg0.win 3).blk t).view.emb j) 1) : S64x128.Idx)
    refine congrArg (V c main_arg2) (funext fun a => Fin.ext ?_)
    match a with
    | ⟨0, _⟩ =>
      show win0_1.index t (0 : Fin 2) * 64 + 1 * k.val = k.val
      omega
    | ⟨1, _⟩ =>
      show win0_1.index t (1 : Fin 2) * 128 + 1 * (j 1).val = win0_3.index t (1 : Fin 2) * 128 + 1 * (j 1).val
      omega
  · show V c main_v44 (((cfg0.win 2).blk t).view.emb (ix2 (0 : Fin 1) (j 1) : S1x128.Idx))
      = V c main_v44 (ix2 (0 : Fin 1) ((((cfg0.win 3).blk t).view.emb j) 1) : S1x128.Idx)
    refine congrArg (V c main_v44) (funext fun a => Fin.ext ?_)
    match a with
    | ⟨0, _⟩ =>
      show win0_2.index t (0 : Fin 2) * 1 + 1 * 0 = 0
      omega
    | ⟨1, _⟩ =>
      show win0_2.index t (1 : Fin 2) * 128 + 1 * (j 1).val = win0_3.index t (1 : Fin 2) * 128 + 1 * (j 1).val
      omega

/-- An index of the output array is in point t's block iff each coordinate is in the block's range on its axis. -/
theorem mem_block (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v45).slice (win0_3.rect t)).set ↔ _
  rw [View.set_slice_whole, Rect.mem_set_unit]
  exact Iff.rfl

/-- The ten row blocks tile the array: row r is in the block of point r / 10000, and every point writes back. -/
theorem blocks_cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 10 := N_0
  obtain ⟨t, ht⟩ : ∃ t : Fin cfg0.N, t.val = (i 0).val / 10000 :=
    ⟨⟨(i 0).val / 10000, by show (i 0).val / 10000 < grid0.N; omega⟩, rfl⟩
  obtain ⟨-, -, -, -, -, -, e30, e31⟩ := block_indices t
  refine ⟨t, flush0_3 t, ?_⟩
  rw [mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 128 ≤ (i 1).val ∧ (i 1).val < win0_3.index t (1 : Fin 2) * 128 + 128
    omega

/-- After the region its output array is the dense layer of the three arrays the region finds. -/
theorem array_eq (c : Dev nD) :
    (dat0 (F := Ideal) V c).arrAt 3 cfg0.N = dense (V c main_v43) (V c main_arg2) (V c main_v44) := by
  exact (dat0 (F := Ideal) V c).arrAt_eq_of_cover 3 (dense (V c main_v43) (V c main_arg2) (V c main_v44))
    (fun t _ => flushed_eq V c t) blocks_cover

end Cert.KernelIdeal.Region0

end
-- ==== Proof.Region1.lean ====
/-
  The second matrix product's region: what its output array holds after the region, as one function of the
  arrays the region finds, index by index, at the ideal instance.

  The grid has ten points; point t stages rows 10000·t … 10000·t + 9999 of the [100000 × 128] input and the whole
  [128 × 64] weight matrix, and writes back rows 10000·t … 10000·t + 9999 of the [100000 × 64] output. The body stores
  x·w of its blocks (the two changes of float format before the product are the identity on extended reals, and a
  matrix-unit product into the zero accumulator is the plain sum over the contracted axis). So entry (r, j) of the
  output is Σ_k a(r, k) · w(k, j), and the ten row blocks tile the array.
-/
import proofs.«110406_j32959579030036_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The matrix product, entry by entry: Σ_k a(r, k) · w(k, j). -/
def prod (a : S100000x128.Idx → EReal) (w : S128x64.Idx → EReal) : S100000x64.Idx → EReal :=
  fun i => ∑ k : Fin 128, a (ix2 (i 0) k) * w (ix2 k (i 1))

/-! ## The index maps over the grid -/

/-- Over the ten grid points: the input's and the output's row block is the point's number, their column block is 0,
    and the weight matrix's one block is block (0, 0). -/
theorem block_indices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-! ## The body's product at an entry -/

/-- The left operand's row is the output's row. -/
theorem lhs_row (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
/-- The left operand's column is the contracted coordinate. -/
theorem lhs_col (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
/-- The right operand's row is the contracted coordinate. -/
theorem rhs_row (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
/-- The right operand's column is the output's column. -/
theorem rhs_col (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- The body's value at entry (p, q) of its [10000 × 64] block: Σ_k x(p, k) · w(k, q). -/
theorem payload_apply (x0 : Vec Ideal S10000x128 .f32) (x1 : Vec Ideal S128x64 .f32) (p : Fin 10000) (q : Fin 64) :
    k1_pay1 x0 x1 (ix2 p q) = ∑ k : Fin 128, x0 (ix2 p k) * x1 (ix2 k q) := by
  unfold k1_pay1
  rw [shapeCast_self]
  refine (Ideal.matmul_constant_zero_apply dot_S10000x128_S128x64_S10000x64_1_0_0_1_n_n none _ _ (ix2 p q)).trans ?_
  rw [← Equiv.sum_comp (contrEquiv1 dot_S10000x128_S128x64_S10000x64_1_0_0_1_n_n 128 rfl rfl).symm]
  refine Finset.sum_congr rfl fun k _ => ?_
  have hk := contrEquiv1_symm_val dot_S10000x128_S128x64_S10000x64_1_0_0_1_n_n 128 rfl rfl k
  have el : dot_S10000x128_S128x64_S10000x64_1_0_0_1_n_n.lhsIdx (ix2 p q) ((contrEquiv1 dot_S10000x128_S128x64_S10000x64_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x64_S10000x64_1_0_0_1_n_n.rhsIdx (ix2 p q) ((contrEquiv1 dot_S10000x128_S128x64_S10000x64_1_0_0_1_n_n 128 rfl rfl).symm k) = ix2 k q := funext fun a => Fin.ext (by
    match a with
    | ⟨0, _⟩ => exact (rhs_row _ _).trans hk
    | ⟨1, _⟩ => exact rhs_col _ _)
  rw [truncf_apply, truncf_apply, el, er]

/-! ## What one grid point writes back -/

theorem zero_offsets : (![0, 0] : Fin 2 → Nat) = fun _ => 0 := funext fun a => by fin_cases a <;> rfl

/-- A block product's entry is the arrays' product's entry, when the staged row of x is the array's row and the staged
    column of w is the matrix's column. -/
theorem block_entry (a : S100000x128.Idx → EReal) (w : S128x64.Idx → EReal)
    (x0 : Vec Ideal S10000x128 .f32) (x1 : Vec Ideal S128x64 .f32) (j : S10000x64.Idx) (i : S100000x64.Idx)
    (hx : ∀ k : Fin 128, x0 (ix2 (j 0) k) = a (ix2 (i 0) k))
    (hw : ∀ k : Fin 128, x1 (ix2 k (j 1)) = w (ix2 k (i 1))) :
    k1_pay1 x0 x1 j = prod a w i := by
  obtain ⟨p, q, rfl⟩ : ∃ (p : Fin 10000) (q : Fin 64), j = ix2 p q := ⟨j 0, j 1, eq_ix2 j⟩
  rw [payload_apply]
  unfold prod
  exact Finset.sum_congr rfl fun k _ => by rw [← hx k, ← hw k]

/-- Point t writes back rows 10000·t … 10000·t + 9999 of the product of the two arrays the region finds. -/
theorem flushed_eq (c : Dev nD) (t : Fin cfg1.N) :
    (dat1 (F := Ideal) V c).flushed 2 t
      = ((cfg1.win 2).blk t).view.read (Elt Ideal) (prod (V c main_v45) (V c main_arg4)) := by
  show (cfg1.win 2).cut (grid1.coords t) ((dat1 (F := Ideal) V c).after 2 t) = _
  rw [after1_2]
  unfold out1_2
  rw [View.canon_unit_zero zero_offsets]
  simp only [View.ld_unit_zero (S := S10000x128) zero_offsets, View.ld_unit_zero (S := S128x64) zero_offsets]
  obtain ⟨a0, a1, w0, w1, o0, o1⟩ := block_indices t
  refine funext fun (j : S10000x64.Idx) => ?_
  show k1_pay1 (iblk1 V c 0 t) (iblk1 V c 1 t) j
    = prod (V c main_v45) (V c main_arg4) (((cfg1.win 2).blk t).view.emb j)
  refine block_entry (V c main_v45) (V c main_arg4) (iblk1 V c 0 t) (iblk1 V c 1 t) j _ (fun k => ?_) (fun k => ?_)
  · show V c main_v45 (((cfg1.win 0).blk t).view.emb (ix2 (j 0) k))
      = V c main_v45 (ix2 ((((cfg1.win 2).blk t).view.emb j) 0) k)
    refine congrArg (V c main_v45) (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 128 + 1 * k.val = k.val
      omega
  · show V c main_arg4 (((cfg1.win 1).blk t).view.emb (ix2 k (j 1)))
      = V c main_arg4 (ix2 k ((((cfg1.win 2).blk t).view.emb j) 1))
    refine congrArg (V c main_arg4) (funext fun a => Fin.ext ?_)
    match a with
    | ⟨0, _⟩ =>
      show win1_1.index t (0 : Fin 2) * 128 + 1 * k.val = k.val
      omega
    | ⟨1, _⟩ =>
      show win1_1.index t (1 : Fin 2) * 64 + 1 * (j 1).val = win1_2.index t (1 : Fin 2) * 64 + 1 * (j 1).val
      omega

/-! ## The ten row blocks tile the array -/

/-- An index of the array is in point t's block iff each coordinate is in the block's range on its axis. -/
theorem mem_block (t : Fin cfg1.N) (i : S100000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v46).slice (win1_2.rect t)).set ↔ _
  rw [View.set_slice_whole, Rect.mem_set_unit]
  exact Iff.rfl

/-- Row r of the array is in the block of point r / 10000, which is written back. -/
theorem rows_covered (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, o0, o1⟩ := block_indices t
  refine ⟨t, flush1_2 t, ?_⟩
  rw [mem_block]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 64 ≤ (i 1).val ∧ (i 1).val < win1_2.index t (1 : Fin 2) * 64 + 64
    omega

/-- After the region its output array is the product of the two arrays the region finds. -/
theorem array_eq (c : Dev nD) :
    (dat1 (F := Ideal) V c).arrAt 2 cfg1.N = prod (V c main_v45) (V c main_arg4) := by
  exact (dat1 (F := Ideal) V c).arrAt_eq_of_cover 2 (prod (V c main_v45) (V c main_arg4))
    (fun t _ => flushed_eq V c t) rows_covered

end Cert.KernelIdeal.Region1

end
-- ==== Proof.Norm.lean ====
/-
  The edge weights are real numbers.

  The degree of a node is a scatter-add of ones into zeros: a natural number. The inverse square root of the degree is
  taken only where the degree is positive (elsewhere the literal zero is selected), and the inverse square root of a
  positive real is a real; so every entry of the table of inverse square roots is a real number. An edge's weight is
  the product of two entries of that table, gathered at the edge's two ends: a real number, whatever the two row
  numbers are (a gather reads SOME entry of the table).
-/
import proofs.«110406_j32959579030036_1_alg».proof.Proof.RefRead
import proofs.«110406_j32959579030036_1_alg».proof.Proof.RowOps
import Idealize.ShloMosaic.Lib.StableHlo.Predicate
import Idealize.ShloMosaic.PureOps.Ideal.Laws

noncomputable section

namespace Cert.Norm

open Idealize.ShloMosaic Idealize.ShloMosaic.ValueIdx Cert.ReferenceIdeal Cert.ReferenceIdeal.ReadP

/-- The pattern of the float one denotes the real one: its sign bit is clear, its exponent field is the bias 127 and its
    fraction is 0, so it reads (2^23 + 0) · 2^(127 - 127 - 23) = 1. -/
theorem ofBits_one_f32 : Ideal.ofBits .f32 0x3F800000#32 = (1 : EReal) := by
  show Ideal.ieee 8 23 (0x3F800000#32 : BitVec 32) = 1
  have hneg : ((0x3F800000#32 : BitVec 32).extractLsb' (8 + 23) 1 == 1#1) = false := by decide
  have hex : ((0x3F800000#32 : BitVec 32).extractLsb' 23 8).toNat = 127 := by decide
  have hfr : ((0x3F800000#32 : BitVec 32).extractLsb' 0 23).toNat = 0 := by decide
  unfold Ideal.ieee
  simp only [hneg, hex, hfr]
  rw [if_neg (by norm_num), if_neg (by norm_num)]
  have hr : ((if false = true then (-1 : ℝ) else 1) * ((2 ^ 23 + 0 : ℕ) : ℝ)
      * (2 : ℝ) ^ ((127 : ℕ) - ((2 : ℤ) ^ (8 - 1) - 1) - (23 : ℕ) : ℤ)) = 1 := by norm_num
  rw [hr]; rfl

/-- The table the degrees are accumulated into is zero everywhere. -/
theorem zeros_eq : val_main_v8 (F := Ideal) = fun _ => (0 : EReal) := by
  funext i
  rw [val_main_v8_apply, val_main_cst_0_apply, Ideal.ofBits_def, Ideal.ofBits_zero_f32]

/-- Every update accumulated into the degrees is one. -/
theorem ones_eq : val_main_v7 (F := Ideal) = fun _ => (1 : EReal) := by
  funext i
  rw [val_main_v7_apply, val_main_cst_apply, Ideal.ofBits_def, ofBits_one_f32]

/-- Scatter-adding updates that are all one into a table that is all zero leaves a natural number at every index: the
    number of updates landing there, whatever the shapes and the indices. -/
theorem scatter_nat_of_consts {s si su : Shape} (d : ScatterDims s si su) {w : Nat} (x : s.Idx → EReal)
    (idx : IVec si w) (upd : su.Idx → EReal) (hx : x = fun _ => (0 : EReal)) (hu : upd = fun _ => (1 : EReal))
    (i : s.Idx) : ∃ k : ℕ, Ideal.hostScatterAdd d x idx upd i = ((k : ℝ) : EReal) := by
  subst hx
  subst hu
  exact Cert.Agg.scatter_ones_nat d idx i

/-- The degrees, spelt out: the scatter-add, at the exact instance, of the updates into the operand. -/
theorem deg_eq (x1 : (⟨S2x1600000, .i32⟩ : BufTy).Contents (Elt Ideal)) :
    val_main_v10 (F := Ideal) x1
      = Ideal.hostScatterAdd scatter_S100000_S1700000x1_S1700000_n_0_0_1 (val_main_v8 (F := Ideal))
          (val_main_v9 (F := Ideal) x1) (val_main_v7 (F := Ideal)) := rfl

/-- The degree of a node is a natural number: ones scatter-added into zeros. -/
theorem deg_nat (x1 : (⟨S2x1600000, .i32⟩ : BufTy).Contents (Elt Ideal)) (i : S100000.Idx) :
    ∃ k : ℕ, val_main_v10 (F := Ideal) x1 i = ((k : ℝ) : EReal) := by
  rw [deg_eq]
  exact scatter_nat_of_consts _ _ _ _ zeros_eq ones_eq i

/-- The inverse square root of a positive real is the real 1/√r. -/
theorem rsqrt_pos_real (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- At a degree that is a natural number, "the inverse square root where the degree is positive, zero elsewhere" is
    real: at degree 0 the comparison fails and the zero is read (the inverse square root of 0, which is +∞, is not);
    at a positive degree k the comparison holds and 1/√k is read. -/
theorem select_rsqrt_nat (k : ℕ) :
    ∃ q : ℝ, Scalar.select (Ideal.cmp .ogt ((k : ℝ) : EReal) 0) (Ideal.rsqrt ((k : ℝ) : EReal)) (0 : EReal)
      = (q : EReal) := by
  rcases Nat.eq_zero_or_pos k with h0 | hpos
  · subst h0
    refine ⟨0, ?_⟩
    have hc : Ideal.cmp .ogt (((0 : ℕ) : ℝ) : EReal) 0 = 0#1 := by
      simp [Ideal.cmp]
    rw [hc]
    rfl
  · have hr : (0 : ℝ) < (k : ℝ) := by exact_mod_cast hpos
    refine ⟨(Real.sqrt k)⁻¹, ?_⟩
    have hc : Ideal.cmp .ogt ((k : ℝ) : EReal) 0 = 1#1 := by
      simp [Ideal.cmp, hpos]
    rw [hc, rsqrt_pos_real _ hr]
    rfl

/-- A gather of single entries of a rank-1 table, by a column of positions, reads at every position SOME entry of the
    table (the one at the position's start index, read signed and clamped into the table). -/
theorem gather_reads_entry {α : Type} {N n w : Nat} (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (hN : 0 < N) (u : (⟨1, ![n]⟩ : Shape).Idx) :
    ∃ j : (⟨1, ![N]⟩ : Shape).Idx, Host.gather d x idx u = x j := by
  rw [Shape.Idx.eq_ofFin u]
  exact ⟨_, StableHlo.Predicate.gather_take d hcoll hob hsim hivd x idx (u 0) hN⟩

/-- The table's entries gathered at the edges' first ends, spelt out. -/
theorem src_eq (x1 : (⟨S2x1600000, .i32⟩ : BufTy).Contents (Elt Ideal)) :
    val_main_v22 (F := Ideal) x1
      = Host.gather gather_S100000_S1700000x1_S1700000_n_0_n_n_0_1_1 (val_main_v15 (F := Ideal) x1)
          (val_main_v21 (F := Ideal) x1) := rfl

/-- The table's entries gathered at the edges' second ends, spelt out. -/
theorem dst_eq (x1 : (⟨S2x1600000, .i32⟩ : BufTy).Contents (Elt Ideal)) :
    val_main_v29 (F := Ideal) x1
      = Host.gather gather_S100000_S1700000x1_S1700000_n_0_n_n_0_1_1 (val_main_v15 (F := Ideal) x1)
          (val_main_v28 (F := Ideal) x1) := rfl

/-- Every entry of the table of inverse square roots of the degrees (zero where the degree is not positive) is real. -/
theorem dinv_real (x1 : (⟨S2x1600000, .i32⟩ : BufTy).Contents (Elt Ideal)) (i : S100000.Idx) :
    ∃ q : ℝ, val_main_v15 (F := Ideal) x1 i = (q : EReal) := by
  obtain ⟨k, hk⟩ := deg_nat x1 i
  rw [val_main_v15_apply, val_main_v12_apply, val_main_v13_apply, val_main_v14_apply, val_main_v11_apply,
    val_main_cst_1_apply, val_main_cst_2_apply, hk, Ideal.cmpf_def, Ideal.hostUnary_rsqrt_def, Ideal.ofBits_def,
    Ideal.ofBits_zero_f32]
  exact select_rsqrt_nat k

/-- Every edge weight is real. -/
theorem norm_real (x1 : (⟨S2x1600000, .i32⟩ : BufTy).Contents (Elt Ideal)) (u : S1700000.Idx) :
    ∃ q : ℝ, val_main_v30 (F := Ideal) x1 u = (q : EReal) := by
  obtain ⟨j1, h1⟩ := gather_reads_entry gather_S100000_S1700000x1_S1700000_n_0_n_n_0_1_1 rfl rfl rfl rfl
    (val_main_v15 (F := Ideal) x1) (val_main_v21 (F := Ideal) x1) (by norm_num) u
  obtain ⟨j2, h2⟩ := gather_reads_entry gather_S100000_S1700000x1_S1700000_n_0_n_n_0_1_1 rfl rfl rfl rfl
    (val_main_v15 (F := Ideal) x1) (val_main_v28 (F := Ideal) x1) (by norm_num) u
  obtain ⟨q1, hq1⟩ := dinv_real x1 j1
  obtain ⟨q2, hq2⟩ := dinv_real x1 j2
  refine ⟨q1 * q2, ?_⟩
  rw [val_main_v30_apply, Ideal.mulf_def, src_eq, dst_eq, h1, h2, hq1, hq2, EReal.coe_mul]

end Cert.Norm

end
-- ==== Proof.Bridge.lean ====
/-
  The kernel's result is the reference's function of the arguments.

  With the regions' arrays read as whole-array functions and the boundary contents read back to the launch memory:
  * the first region leaves max(aggregate · W₃ + b₃, 0), and the aggregate times W₃ is the aggregation of x · W₃ (the
    linearity law, at real entries): the reference's hidden layer;
  * the second region leaves that hidden layer times W₄: the reference's second product;
  * the tail aggregates it and adds b₄, as the reference does.
-/
import proofs.«110406_j32959579030036_1_alg».proof.Proof.KernelFold
import proofs.«110406_j32959579030036_1_alg».proof.Proof.Core
import proofs.«110406_j32959579030036_1_alg».proof.Proof.Region0
import proofs.«110406_j32959579030036_1_alg».proof.Proof.Region1
import proofs.«110406_j32959579030036_1_alg».proof.Proof.Norm
import Idealize.ShloMosaic.Lib.ValueLayout
import Idealize.ShloMosaic.PureOps.Ideal.Laws

set_option maxRecDepth 16384

noncomputable section

namespace Cert.Bridge

open Cert.KernelIdeal Cert.KernelIdeal.Gen
open Cert.ReferenceIdeal.ReadP
open Idealize.ShloMosaic Idealize.ShloMosaic.TcCoe Idealize.ShloMosaic.ValueIdx Idealize.SL.Sem

variable (m : (ℓ : Loc nD τ sig) → Buf (Elt Ideal) ℓ) (ρ : Dev nD → PrngReg)

/-- The dense layer of the aggregate is the reference's hidden layer, entry by entry. -/
theorem dense_agg_eq (x0 : FVec Ideal S100000x64 .f32) (x1 : IVec S2x1600000 32) (x2 : FVec Ideal S64x128 .f32)
    (x3 : FVec Ideal S128 .f32)
    (hx0 : ∀ i, ∃ q : ℝ, x0 i = (q : EReal)) (hx2 : ∀ i, ∃ q : ℝ, x2 i = (q : EReal)) :
    Region0.dense (Cert.Fold.agg (F := Ideal) x0 x1) x2 (shapeCast S1x128 x3 shapeCasts_S128_S1x128)
      = val_main_v48 (F := Ideal) x0 x1 x2 x3 := by
  funext j
  obtain ⟨r, q, rfl⟩ : ∃ (r : Fin 100000) (q : Fin 128), j = ix2 r q := ⟨j 0, j 1, eq_ix2 j⟩
  rw [val_main_v48_apply, val_main_v47_apply, val_main_call1_v0_apply, val_main_call1_cst_apply, val_main_v46_apply,
    val_main_v45_apply]
  show max ((∑ k : Fin 64, Cert.Fold.agg (F := Ideal) x0 x1 (ix2 r k) * x2 (ix2 k q))
      + shapeCast S1x128 x3 shapeCasts_S128_S1x128 (ix2 (0 : Fin 1) q)) 0
    = max (val_main_v44 (F := Ideal) x0 x1 x2 (ix2 r q) + x3 (idx_main_v45 (idx_main_v46 (ix2 r q)))) (Ideal.ofBits .f32 0x00000000#32)
  rw [Cert.Core.agg_mul_eq x0 x1 x2 hx0 hx2 (Cert.Norm.norm_real x1) r q, shapeCast_a_1a_apply, Ideal.ofBits_zero_f32]
  exact congrArg (fun t => max (val_main_v44 (F := Ideal) x0 x1 x2 (ix2 r q) + x3 t) 0)
    (funext fun a => match a with | ⟨0, _⟩ => rfl)

/-- The product of an array with a matrix is the reference's second product, when the array is the hidden layer. -/
theorem prod_hidden_eq (x0 : FVec Ideal S100000x64 .f32) (x1 : IVec S2x1600000 32) (x2 : FVec Ideal S64x128 .f32)
    (x3 : FVec Ideal S128 .f32) (x4 : FVec Ideal S128x64 .f32) :
    Region1.prod (val_main_v48 (F := Ideal) x0 x1 x2 x3) x4 = val_main_v49 (F := Ideal) x0 x1 x2 x3 x4 := by
  funext i
  obtain ⟨r, q, rfl⟩ : ∃ (r : Fin 100000) (q : Fin 64), i = ix2 r q := ⟨i 0, i 1, eq_ix2 i⟩
  rw [val_main_v49_apply]
  show ∑ k : Fin 128, val_main_v48 (F := Ideal) x0 x1 x2 x3 (ix2 r k) * x4 (ix2 k q) = _
  refine Finset.sum_congr rfl fun k _ => ?_
  rw [show lidx_main_v49 (ix2 r q) k = ix2 r k from funext fun a => match a with | ⟨0, _⟩ => rfl | ⟨1, _⟩ => rfl,
    show ridx_main_v49 (ix2 r q) k = ix2 k q from funext fun a => match a with | ⟨0, _⟩ => rfl | ⟨1, _⟩ => rfl]

/-- What the second region stages as its input is the reference's hidden layer. -/
theorem hidden_eq (c : Dev nD)
    (hx0 : ∀ i, ∃ q : ℝ, m ((c : Thread nD τ).loc main_arg0) i = (q : EReal))
    (hx2 : ∀ i, ∃ q : ℝ, m ((c : Thread nD τ).loc main_arg2) i = (q : EReal)) :
    W4 m ρ c (Proc.devRef .tc main_v45)
      = val_main_v48 (F := Ideal) (m ((c : Thread nD τ).loc main_arg0)) (m ((c : Thread nD τ).loc main_arg1))
          (m ((c : Thread nD τ).loc main_arg2)) (m ((c : Thread nD τ).loc main_arg3)) := by
  rw [Cert.Fold.mid_v45, Region0.array_eq]
  show Region0.dense (W3 m ρ c (Proc.devRef .tc main_v43)) (W3 m ρ c (Proc.devRef .tc main_arg2))
      (W3 m ρ c (Proc.devRef .tc main_v44)) = _
  rw [Cert.Fold.entry_v43, Cert.Fold.entry_arg2, Cert.Fold.entry_v44]
  exact dense_agg_eq _ _ _ _ hx0 hx2

/-- What the tail gathers from is the reference's second product. -/
theorem second_eq (c : Dev nD)
    (hx0 : ∀ i, ∃ q : ℝ, m ((c : Thread nD τ).loc main_arg0) i = (q : EReal))
    (hx2 : ∀ i, ∃ q : ℝ, m ((c : Thread nD τ).loc main_arg2) i = (q : EReal)) :
    W5 m ρ c (Proc.devRef .tc main_v46)
      = val_main_v49 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  rw [Cert.Fold.exit_v46, Region1.array_eq]
  show Region1.prod (W4 m ρ c (Proc.devRef .tc main_v45)) (W4 m ρ c (Proc.devRef .tc main_arg4)) = _
  rw [hidden_eq m ρ c hx0 hx2, Cert.Fold.mid_arg4]
  exact prod_hidden_eq _ _ _ _ _

/-- THE KERNEL'S RESULT is the reference's result function of the launch arrays. -/
theorem value_eq (c : Dev nD)
    (hx0 : ∀ i, ∃ q : ℝ, m ((c : Thread nD τ).loc main_arg0) i = (q : EReal))
    (hx2 : ∀ i, ∃ q : ℝ, m ((c : Thread nD τ).loc main_arg2) i = (q : EReal)) :
    W6 m ρ c (Proc.devRef .tc main_v62)
      = val_main_v65 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  rw [Cert.Fold.result_eq, second_eq m ρ c hx0 hx2, ← Cert.Fold.ref_v62]
  rfl

end Cert.Bridge

end
-- ==== Proof.lean ====
/-
  A two-layer graph convolution: a kernel that aggregates before the first linear map, against a reference that
  aggregates after it.

  With Agg(H) the degree-normalised aggregation over the graph (self-loops appended): row r of Agg(H) is the sum, over the
  edges e whose target is r, of row src(e) of H times norm(e), the reference computes
        Agg( max(Agg(x · W₃) + b₃, 0) · W₄ ) + b₄
  and the kernel
        Agg( max(Agg(x) · W₃ + b₃, 0) · W₄ ) + b₄ ,
  its two matrix products (with the bias and the rectifier of the first) on the matrix unit, in row blocks of 10000. At
  the ideal instance the changes of float format around the products are the identity and a product into the zero
  accumulator is the exact sum, so the two programs differ only in Agg(x) · W₃ against Agg(x · W₃): entry (r, c) of
  either is a sum of x(src e, k) · W₃(k, c) · norm(e) over the edges landing on r and over k. That is distributivity and
  an exchange of two finite sums, valid on the extended reals because every entry involved is a real number — x and W₃
  by the precondition, norm(e) because it is a product of two entries of a table that holds the inverse square root of
  a positive integer where the degree is positive and zero elsewhere. Index words are never interpreted: a gather reads
  the row its row number selects when clamped, a scatter-add drops a row number outside the array, and both programs
  use the same row numbers.

  The frames of the two kernel programs are their generated frames; the reference's frame is its run with the result
  dropped; the idealization rewrote nothing, so there is nothing to preserve.
-/
import proofs.«110406_j32959579030036_1_alg».proof.Defs
import proofs.«110406_j32959579030036_1_alg».proof.Proof.Gen.Kernel
import proofs.«110406_j32959579030036_1_alg».proof.Proof.Gen.Kernel.Frame
import proofs.«110406_j32959579030036_1_alg».proof.Proof.Gen.KernelIdeal
import proofs.«110406_j32959579030036_1_alg».proof.Proof.Gen.KernelIdeal.Frame
import proofs.«110406_j32959579030036_1_alg».proof.Proof.Gen.ReferenceIdeal
import proofs.«110406_j32959579030036_1_alg».proof.Proof.Gen.Pre_finite_inputs
import proofs.«110406_j32959579030036_1_alg».proof.Proof.KernelRun
import proofs.«110406_j32959579030036_1_alg».proof.Proof.RefRun
import proofs.«110406_j32959579030036_1_alg».proof.Proof.RefRead
import proofs.«110406_j32959579030036_1_alg».proof.Proof.Finite
import proofs.«110406_j32959579030036_1_alg».proof.Proof.Bridge
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernel_ideal : Cert.frame_KernelIdeal := fun m ρ _ => Cert.KernelIdeal.Gen.frame m ρ

/-- The idealized reference runs and keeps its arguments: its run, the result dropped. -/
theorem frame_reference_ideal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments both idealized programs end with the reference's result function of the
    arguments: the kernel by the linearity of the aggregation, at the real entries the precondition gives. -/
theorem algebraic : Cert.algebraic_KernelIdeal_ReferenceIdeal := by
  intro m ρ m' ρ' hpre hagree
  have hreal := fun c => Cert.Finite.real_of_pre _ _ _ _ _ _ (hpre c)
  refine ⟨fun c => Cert.ReferenceIdeal.ReadP.val_main_v65 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.Bridge.value_eq m ρ c (hreal c).1 (hreal c).2), (h c).2⟩)
      (Cert.KernelIdeal.RunN.run_named (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.ReadP.val_main_v65_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
